-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x320000 : Shape := ⟨2, ![2, 320000]⟩
abbrev S2x100000 : Shape := ⟨2, ![2, 100000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S512 .f32) (main_arg7 : FVec F S512x256 .f32) (main_arg8 : FVec F S256 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg7
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S20000x512 .f32) (main_arg1 : IVec S2x320000 32) (main_arg2 : IVec S2x100000 32) (main_arg3 : FVec F S512x512 .f32) (main_arg4 : FVec F S512 .f32) (main_arg5 : FVec F S512x512 .f32) (main_arg6 : FVec F S512 .f32) (main_arg7 : FVec F S512x256 .f32) (main_arg8 : FVec F S256 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_v13 main_v16
-- ==== Kernel.lean ====
abbrev S20000x512 : Shape := ⟨2, ![20000, 512]⟩
abbrev S2x320000 : Shape := ⟨2, ![2, 320000]⟩
abbrev S2x100000 : Shape := ⟨2, ![2, 100000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S2000x512 : Shape := ⟨2, ![2000, 512]⟩
abbrev S_ : Shape := ⟨0, ![]⟩
abbrev S320000x1 : Shape := ⟨2, ![320000, 1]⟩
abbrev S320000x512 : Shape := ⟨2, ![320000, 512]⟩
abbrev S1x512 : Shape := ⟨2, ![1, 512]⟩
abbrev S20000x256 : Shape := ⟨2, ![20000, 256]⟩
abbrev S2000x256 : Shape := ⟨2, ![2000, 256]⟩
abbrev S320000x256 : Shape := ⟨2, ![320000, 256]⟩
abbrev S1x256 : Shape := ⟨2, ![1, 256]⟩
abbrev S1x100000 : Shape := ⟨2, ![1, 100000]⟩
abbrev S100000 : Shape := ⟨1, ![100000]⟩
abbrev S100000x1 : Shape := ⟨2, ![100000, 1]⟩
abbrev S100000x256 : Shape := ⟨2, ![100000, 256]⟩

abbrev nBuf : Space → Nat
  | .hbm => 95
  | .vmem => 15
  | .smem => 0
  | _ => 0

abbrev bufTy : (tb : Table) → Fin (tcTables nBuf tb) → BufTy
  | .hbm, ⟨0, _⟩ => ⟨S20000x512, .f32⟩
  | .hbm, ⟨1, _⟩ => ⟨S2x320000, .i32⟩
  | .hbm, ⟨2, _⟩ => ⟨S2x100000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S20000x512, .f32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x512, .f32⟩
  | .hbm, ⟨23, _⟩ => ⟨S_, .f32⟩
  | .hbm, ⟨24, _⟩ => ⟨S20000x512, .f32⟩
  | .hbm, ⟨25, _⟩ => ⟨S320000x1, .i32⟩
  | .hbm, ⟨26, _⟩ => ⟨S20000x512, .f32⟩
  | .hbm, ⟨27, _⟩ => ⟨S1x512, .f32⟩
  | .hbm, ⟨28, _⟩ => ⟨S20000x512, .f32⟩
  | .hbm, ⟨29, _⟩ => ⟨S20000x512, .f32⟩
  | .hbm, ⟨30, _⟩ => ⟨S_, .f32⟩
  | .hbm, ⟨31, _⟩ => ⟨S20000x512, .f32⟩
  | .hbm, ⟨32, _⟩ => ⟨S20000x512, .f32⟩
  | .hbm, ⟨33, _⟩ => ⟨S20000x512, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x512, .f32⟩
  | .hbm, ⟨43, _⟩ => ⟨S_, .f32⟩
  | .hbm, ⟨44, _⟩ => ⟨S20000x512, .f32⟩
  | .hbm, ⟨45, _⟩ => ⟨S320000x1, .i32⟩
  | .hbm, ⟨46, _⟩ => ⟨S20000x512, .f32⟩
  | .hbm, ⟨47, _⟩ => ⟨S1x512, .f32⟩
  | .hbm, ⟨48, _⟩ => ⟨S20000x512, .f32⟩
  | .hbm, ⟨49, _⟩ => ⟨S20000x512, .f32⟩
  | .hbm, ⟨50, _⟩ => ⟨S_, .f32⟩
  | .hbm, ⟨51, _⟩ => ⟨S20000x512, .f32⟩
  | .hbm, ⟨52, _⟩ => ⟨S20000x512, .f32⟩
  | .hbm, ⟨53, _⟩ => ⟨S20000x256, .f32⟩
  | .hbm, ⟨54, _⟩ => ⟨S_, .i32⟩
  | .hbm, ⟨55, _⟩ => ⟨S320000, .i32⟩
  | .hbm, ⟨56, _⟩ => ⟨S320000, .i1⟩
  | .hbm, ⟨57, _⟩ => ⟨S_, .i32⟩
  | .hbm, ⟨58, _⟩ => ⟨S320000, .i32⟩
  | .hbm, ⟨59, _⟩ => ⟨S320000, .i32⟩
  | .hbm, ⟨60, _⟩ => ⟨S320000, .i32⟩
  | .hbm, ⟨61, _⟩ => ⟨S320000x1, .i32⟩
  | .hbm, ⟨62, _⟩ => ⟨S320000x256, .f32⟩
  | .hbm, ⟨63, _⟩ => ⟨S_, .f32⟩
  | .hbm, ⟨64, _⟩ => ⟨S20000x256, .f32⟩
  | .hbm, ⟨65, _⟩ => ⟨S320000x1, .i32⟩
  | .hbm, ⟨66, _⟩ => ⟨S20000x256, .f32⟩
  | .hbm, ⟨67, _⟩ => ⟨S1x256, .f32⟩
  | .hbm, ⟨68, _⟩ => ⟨S20000x256, .f32⟩
  | .hbm, ⟨69, _⟩ => ⟨S20000x256, .f32⟩
  | .hbm, ⟨70, _⟩ => ⟨S1x100000, .i32⟩
  | .hbm, ⟨71, _⟩ => ⟨S100000, .i32⟩
  | .hbm, ⟨72, _⟩ => ⟨S_, .i32⟩
  | .hbm, ⟨73, _⟩ => ⟨S100000, .i32⟩
  | .hbm, ⟨74, _⟩ => ⟨S100000, .i1⟩
  | .hbm, ⟨75, _⟩ => ⟨S_, .i32⟩
  | .hbm, ⟨76, _⟩ => ⟨S100000, .i32⟩
  | .hbm, ⟨77, _⟩ => ⟨S100000, .i32⟩
  | .hbm, ⟨78, _⟩ => ⟨S100000, .i32⟩
  | .hbm, ⟨79, _⟩ => ⟨S100000x1, .i32⟩
  | .hbm, ⟨80, _⟩ => ⟨S100000x256, .f32⟩
  | .hbm, ⟨81, _⟩ => ⟨S1x100000, .i32⟩
  | .hbm, ⟨82, _⟩ => ⟨S100000, .i32⟩
  | .hbm, ⟨83, _⟩ => ⟨S_, .i32⟩
  | .hbm, ⟨84, _⟩ => ⟨S100000, .i32⟩
  | .hbm, ⟨85, _⟩ => ⟨S100000, .i1⟩
  | .hbm, ⟨86, _⟩ => ⟨S_, .i32⟩
  | .hbm, ⟨87, _⟩ => ⟨S100000, .i32⟩
  | .hbm, ⟨88, _⟩ => ⟨S100000, .i32⟩
  | .hbm, ⟨89, _⟩ => ⟨S100000, .i32⟩
  | .hbm, ⟨90, _⟩ => ⟨S100000x1, .i32⟩
  | .hbm, ⟨91, _⟩ => ⟨S100000x256, .f32⟩
  | .hbm, ⟨92, _⟩ => ⟨S100000x256, .f32⟩
  | .hbm, ⟨93, _⟩ => ⟨S_, .f32⟩
  | .hbm, ⟨94, _⟩ => ⟨S100000, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S512x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S512x256, .f32⟩
  | .local _ .vmem, ⟨13, _⟩ => ⟨S2000x256, .f32⟩
  | .local _ .vmem, ⟨14, _⟩ => ⟨S2000x256, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_cst : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_cst : Ref sig .tc := ⟨.hbm, 50, rfl⟩
abbrev main_call1_v0 : Ref sig .tc := ⟨.hbm, 51, rfl⟩
abbrev main_v33 : Ref sig .tc := ⟨.hbm, 52, rfl⟩
abbrev main_v34 : Ref sig .tc := ⟨.hbm, 53, rfl⟩
abbrev main_c_4 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_7 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S_S320000 : S_.BroadcastsInDim S320000 (![] : Fin 0 → Fin S320000.rank)
  bcast_S320000_S320000x1_0 : S320000.BroadcastsInDim S320000x1 (![0] : Fin 1 → Fin S320000x1.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  reducesTo_S100000x256_S100000_d1 : S100000x256.ReducesTo [1] S100000
  h_S_ : 0 < S_.numel
  dot_S2000x512_S512x512_S2000x512_1_0_0_1_n_n_wf : DotDims.WF S2000x512 S512x512 S2000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S2000x512_S512x256_S2000x256_1_0_0_1_n_n_wf : DotDims.WF S2000x512 S512x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  gather_S20000x256_S100000x1_S100000x256_1_0_n_n_0_1_1256_wf : GatherDims.WF S20000x256 S100000x1 S100000x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .f32 = 32 ∨ (Rect.block (s := S20000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S20000x512.size a
  hwx0_2 : ∀ i : grid0.Coords, EltTy.bits .f32 = 32 ∨ (Rect.block (s := S20000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .f32 = 32 ∨ (Rect.block (s := S20000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S20000x512.size a
  hwx1_2 : ∀ i : grid1.Coords, EltTy.bits .f32 = 32 ∨ (Rect.block (s := S20000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S20000x512.size a
  hwx2_0 : ∀ i : grid2.Coords, EltTy.bits .f32 = 32 ∨ (Rect.block (s := S20000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .f32 = 32 ∨ (Rect.block (s := S512x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .f32 = 32 ∨ (Rect.block (s := S20000x256) S2000x256.size (cc2_transform_2 i) (hinb2_2 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def gather_S20000x256_S100000x1_S100000x256_1_0_n_n_0_1_1256 : GatherDims S20000x256 S100000x1 S100000x256 where
  offsetDims := [1]
  collapsedSliceDims := [0]
  operandBatchingDims := []
  startIndicesBatchingDims := []
  startIndexMap := [0]
  indexVectorDim := 1
  sliceSizes := ![1, 256]
  wf := gather_S20000x256_S100000x1_S100000x256_1_0_n_n_0_1_1256_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v33) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S20000x512 : Shape := ⟨2, ![20000, 512]⟩
abbrev S2x320000 : Shape := ⟨2, ![2, 320000]⟩
abbrev S2x100000 : Shape := ⟨2, ![2, 100000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x512 : Shape := ⟨2, ![320000, 512]⟩
abbrev S1x512 : Shape := ⟨2, ![1, 512]⟩
abbrev S20000x256 : Shape := ⟨2, ![20000, 256]⟩
abbrev S320000x256 : Shape := ⟨2, ![320000, 256]⟩
abbrev S1x256 : Shape := ⟨2, ![1, 256]⟩
abbrev S1x100000 : Shape := ⟨2, ![1, 100000]⟩
abbrev S100000 : Shape := ⟨1, ![100000]⟩
abbrev S100000x1 : Shape := ⟨2, ![100000, 1]⟩
abbrev S100000x256 : Shape := ⟨2, ![100000, 256]⟩

abbrev nBuf : Space → Nat
  | .hbm => 95
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S2x320000, .i32⟩
  | .hbm, ⟨2, _⟩ => ⟨S2x100000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S20000x512, .f32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x512, .f32⟩
  | .hbm, ⟨23, _⟩ => ⟨S_, .f32⟩
  | .hbm, ⟨24, _⟩ => ⟨S20000x512, .f32⟩
  | .hbm, ⟨25, _⟩ => ⟨S320000x1, .i32⟩
  | .hbm, ⟨26, _⟩ => ⟨S20000x512, .f32⟩
  | .hbm, ⟨27, _⟩ => ⟨S1x512, .f32⟩
  | .hbm, ⟨28, _⟩ => ⟨S20000x512, .f32⟩
  | .hbm, ⟨29, _⟩ => ⟨S20000x512, .f32⟩
  | .hbm, ⟨30, _⟩ => ⟨S_, .f32⟩
  | .hbm, ⟨31, _⟩ => ⟨S20000x512, .f32⟩
  | .hbm, ⟨32, _⟩ => ⟨S20000x512, .f32⟩
  | .hbm, ⟨33, _⟩ => ⟨S20000x512, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x512, .f32⟩
  | .hbm, ⟨43, _⟩ => ⟨S_, .f32⟩
  | .hbm, ⟨44, _⟩ => ⟨S20000x512, .f32⟩
  | .hbm, ⟨45, _⟩ => ⟨S320000x1, .i32⟩
  | .hbm, ⟨46, _⟩ => ⟨S20000x512, .f32⟩
  | .hbm, ⟨47, _⟩ => ⟨S1x512, .f32⟩
  | .hbm, ⟨48, _⟩ => ⟨S20000x512, .f32⟩
  | .hbm, ⟨49, _⟩ => ⟨S20000x512, .f32⟩
  | .hbm, ⟨50, _⟩ => ⟨S_, .f32⟩
  | .hbm, ⟨51, _⟩ => ⟨S20000x512, .f32⟩
  | .hbm, ⟨52, _⟩ => ⟨S20000x512, .f32⟩
  | .hbm, ⟨53, _⟩ => ⟨S20000x256, .f32⟩
  | .hbm, ⟨54, _⟩ => ⟨S_, .i32⟩
  | .hbm, ⟨55, _⟩ => ⟨S320000, .i32⟩
  | .hbm, ⟨56, _⟩ => ⟨S320000, .i1⟩
  | .hbm, ⟨57, _⟩ => ⟨S_, .i32⟩
  | .hbm, ⟨58, _⟩ => ⟨S320000, .i32⟩
  | .hbm, ⟨59, _⟩ => ⟨S320000, .i32⟩
  | .hbm, ⟨60, _⟩ => ⟨S320000, .i32⟩
  | .hbm, ⟨61, _⟩ => ⟨S320000x1, .i32⟩
  | .hbm, ⟨62, _⟩ => ⟨S320000x256, .f32⟩
  | .hbm, ⟨63, _⟩ => ⟨S_, .f32⟩
  | .hbm, ⟨64, _⟩ => ⟨S20000x256, .f32⟩
  | .hbm, ⟨65, _⟩ => ⟨S320000x1, .i32⟩
  | .hbm, ⟨66, _⟩ => ⟨S20000x256, .f32⟩
  | .hbm, ⟨67, _⟩ => ⟨S1x256, .f32⟩
  | .hbm, ⟨68, _⟩ => ⟨S20000x256, .f32⟩
  | .hbm, ⟨69, _⟩ => ⟨S20000x256, .f32⟩
  | .hbm, ⟨70, _⟩ => ⟨S1x100000, .i32⟩
  | .hbm, ⟨71, _⟩ => ⟨S100000, .i32⟩
  | .hbm, ⟨72, _⟩ => ⟨S_, .i32⟩
  | .hbm, ⟨73, _⟩ => ⟨S100000, .i32⟩
  | .hbm, ⟨74, _⟩ => ⟨S100000, .i1⟩
  | .hbm, ⟨75, _⟩ => ⟨S_, .i32⟩
  | .hbm, ⟨76, _⟩ => ⟨S100000, .i32⟩
  | .hbm, ⟨77, _⟩ => ⟨S100000, .i32⟩
  | .hbm, ⟨78, _⟩ => ⟨S100000, .i32⟩
  | .hbm, ⟨79, _⟩ => ⟨S100000x1, .i32⟩
  | .hbm, ⟨80, _⟩ => ⟨S100000x256, .f32⟩
  | .hbm, ⟨81, _⟩ => ⟨S1x100000, .i32⟩
  | .hbm, ⟨82, _⟩ => ⟨S100000, .i32⟩
  | .hbm, ⟨83, _⟩ => ⟨S_, .i32⟩
  | .hbm, ⟨84, _⟩ => ⟨S100000, .i32⟩
  | .hbm, ⟨85, _⟩ => ⟨S100000, .i1⟩
  | .hbm, ⟨86, _⟩ => ⟨S_, .i32⟩
  | .hbm, ⟨87, _⟩ => ⟨S100000, .i32⟩
  | .hbm, ⟨88, _⟩ => ⟨S100000, .i32⟩
  | .hbm, ⟨89, _⟩ => ⟨S100000, .i32⟩
  | .hbm, ⟨90, _⟩ => ⟨S100000x1, .i32⟩
  | .hbm, ⟨91, _⟩ => ⟨S100000x256, .f32⟩
  | .hbm, ⟨92, _⟩ => ⟨S100000x256, .f32⟩
  | .hbm, ⟨93, _⟩ => ⟨S_, .f32⟩
  | .hbm, ⟨94, _⟩ => ⟨S100000, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_cst : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_cst : Ref sig .tc := ⟨.hbm, 50, rfl⟩
abbrev main_call1_v0 : Ref sig .tc := ⟨.hbm, 51, rfl⟩
abbrev main_v33 : Ref sig .tc := ⟨.hbm, 52, rfl⟩
abbrev main_v34 : Ref sig .tc := ⟨.hbm, 53, rfl⟩
abbrev main_c_4 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_7 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  reducesTo_S100000x256_S100000_d1 : S100000x256.ReducesTo [1] S100000
  h_S_ : 0 < S_.numel
  dot_S20000x512_S512x512_S20000x512_1_0_0_1_n_n_wf : DotDims.WF S20000x512 S512x512 S20000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S20000x512_S512x256_S20000x256_1_0_0_1_n_n_wf : DotDims.WF S20000x512 S512x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  gather_S20000x256_S100000x1_S100000x256_1_0_n_n_0_1_1256_wf : GatherDims.WF S20000x256 S100000x1 S100000x256 [1] [0] [] [0] [] 1 ![1, 256]

variable [Facts₀]

def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def gather_S20000x256_S100000x1_S100000x256_1_0_n_n_0_1_1256 : GatherDims S20000x256 S100000x1 S100000x256 where
  offsetDims := [1]
  collapsedSliceDims := [0]
  operandBatchingDims := []
  startIndicesBatchingDims := []
  startIndexMap := [0]
  indexVectorDim := 1
  sliceSizes := ![1, 256]
  wf := gather_S20000x256_S100000x1_S100000x256_1_0_n_n_0_1_1256_wf

class Facts : Prop extends Facts₀ where

variable [Facts]
-- ==== Proof.Carry.lean ====
/-
  Which buffers each stretch of host operations between the three matrix products writes. Every operation writes one
  buffer, its result; a buffer that is no operation's result therefore holds after a stretch what it held before it.
  This is what lets the edge list's two rows, computed once before the first product, and the weight and bias
  arguments be read unchanged at every later layer.
-/
import proofs.«125610_j88278757802628_1_alg».proof.Proof.Gen.KernelIdeal.Frame

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers written by the four operations that split the edge list into its source and destination rows. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer outside that list holds after the stretch what it held before it. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- The buffers written by the first layer's gather, scatter-add and bias. -/
abbrev hostOps1_W : List (Ref sig .tc) := [main_c, main_v5, main_v6, main_c_0, main_v7, main_v8, main_v9, main_v10, main_v11, main_cst, main_v12, main_v13, main_v14, main_v15, main_v16, main_v17]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

/-- The buffers written by the first layer's rectifier. -/
abbrev hostOps1_1_W : List (Ref sig .tc) := [main_call0_cst, main_call0_v0, main_v18]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem W4_of (c : Dev nD) (r : Ref sig .tc) (h : r ∉ (hostOps1_1_W : List (Ref sig .tc))) :
    W4 m ρ c (Proc.devRef .tc r) = W3 m ρ c (Proc.devRef .tc r) :=
  StableHlo.after_of_writes_sub hostOps1_1 _ hostOps1_1_writes h

/-- The buffers written by the second layer's gather, scatter-add and bias. -/
abbrev hostOps2_W : List (Ref sig .tc) := [main_c_1, main_v20, main_v21, main_c_2, main_v22, main_v23, main_v24, main_v25, main_v26, main_cst_3, main_v27, main_v28, main_v29, main_v30, main_v31, main_v32]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem W6_of (c : Dev nD) (r : Ref sig .tc) (h : r ∉ (hostOps2_W : List (Ref sig .tc))) :
    W6 m ρ c (Proc.devRef .tc r) = W5 m ρ c (Proc.devRef .tc r) :=
  StableHlo.after_of_writes_sub hostOps2 _ hostOps2_writes h

/-- The buffers written by the second layer's rectifier. -/
abbrev hostOps2_1_W : List (Ref sig .tc) := [main_call1_cst, main_call1_v0, main_v33]
theorem hostOps2_1_writes : (hostOps2_1 : List (HloOp τ sig (Elt F))).Forall fun op => op.writes ⊆ (hostOps2_1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem W7_of (c : Dev nD) (r : Ref sig .tc) (h : r ∉ (hostOps2_1_W : List (Ref sig .tc))) :
    W7 m ρ c (Proc.devRef .tc r) = W6 m ρ c (Proc.devRef .tc r) :=
  StableHlo.after_of_writes_sub hostOps2_1 _ hostOps2_1_writes h

end Cert.KernelIdeal.Carry

end
-- ==== Proof.HostStages.lean ====
/-
  What each stretch of host operations of the kernel's program computes, named by the reference's own stages. Between
  two matrix products the kernel's program and the reference apply the same operations: wrap negative node ids by the
  node count, gather the rows of the product at the edges' source nodes, add them up at the destination nodes, add the
  bias, and (after the first two layers) clamp below at zero; after the third, gather both endpoints of each labelled
  pair and sum the products of their rows. So a stretch that starts from buffers holding the reference's values of the
  product, of the two index rows and of the bias ends with its result buffer at the reference's next stage. Nothing
  here opens a gather or a scatter: both sides are the same operations of the same operands.
-/
import proofs.«125610_j88278757802628_1_alg».proof.Proof.Gen.KernelIdeal.Launch
import proofs.«125610_j88278757802628_1_alg».proof.Proof.Gen.ReferenceIdeal.Read
import Idealize.ShloMosaic.Lib.StableHlo.Run

noncomputable section

namespace Cert.KernelIdeal.HostStages

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The edge list's first row as one vector: the source node of every edge. -/
theorem stage0_src (W : Valuation τ sig (Elt F)) (x1 : (⟨S2x320000, .i32⟩ : BufTy).Contents (Elt F))
    (h : W (Proc.devRef .tc main_arg1) = x1) :
    after hostOps0 W (Proc.devRef .tc main_v1) = val_main_v1 (F := F) x1 := by
  dsimp only [hostOps0]
  after_results
  rw [h]; rfl

/-- The edge list's second row as one vector: the destination node of every edge. -/
theorem stage0_dst (W : Valuation τ sig (Elt F)) (x1 : (⟨S2x320000, .i32⟩ : BufTy).Contents (Elt F))
    (h : W (Proc.devRef .tc main_arg1) = x1) :
    after hostOps0 W (Proc.devRef .tc main_v3) = val_main_v3 (F := F) x1 := by
  dsimp only [hostOps0]
  after_results
  rw [h]; rfl

/-- The first layer after its product: rows gathered at the sources, summed at the destinations, the bias added,
    clamped below at zero. -/
theorem stage1 (W : Valuation τ sig (Elt F))
    (x0 : (⟨S20000x512, .f32⟩ : BufTy).Contents (Elt F)) (x1 : (⟨S2x320000, .i32⟩ : BufTy).Contents (Elt F))
    (x3 : (⟨S512x512, .f32⟩ : BufTy).Contents (Elt F)) (x4 : (⟨S512, .f32⟩ : BufTy).Contents (Elt F))
    (hlin : W (Proc.devRef .tc main_v4) = val_main_v4 (F := F) x0 x3)
    (hsrc : W (Proc.devRef .tc main_v1) = val_main_v1 (F := F) x1)
    (hdst : W (Proc.devRef .tc main_v3) = val_main_v3 (F := F) x1)
    (hb : W (Proc.devRef .tc main_arg4) = x4) :
    after hostOps1_1 (after hostOps1 W) (Proc.devRef .tc main_v18) = val_main_v18 (F := F) x0 x1 x3 x4 := by
  dsimp only [hostOps1, hostOps1_1]
  after_results_simp
  rw [hlin, hsrc, hdst, hb]; rfl

/-- The second layer after its product, the same way. -/
theorem stage2 (W : Valuation τ sig (Elt F))
    (x0 : (⟨S20000x512, .f32⟩ : BufTy).Contents (Elt F)) (x1 : (⟨S2x320000, .i32⟩ : BufTy).Contents (Elt F))
    (x3 : (⟨S512x512, .f32⟩ : BufTy).Contents (Elt F)) (x4 : (⟨S512, .f32⟩ : BufTy).Contents (Elt F))
    (x5 : (⟨S512x512, .f32⟩ : BufTy).Contents (Elt F)) (x6 : (⟨S512, .f32⟩ : BufTy).Contents (Elt F))
    (hlin : W (Proc.devRef .tc main_v19) = val_main_v19 (F := F) x0 x1 x3 x4 x5)
    (hsrc : W (Proc.devRef .tc main_v1) = val_main_v1 (F := F) x1)
    (hdst : W (Proc.devRef .tc main_v3) = val_main_v3 (F := F) x1)
    (hb : W (Proc.devRef .tc main_arg6) = x6) :
    after hostOps2_1 (after hostOps2 W) (Proc.devRef .tc main_v33) = val_main_v33 (F := F) x0 x1 x3 x4 x5 x6 := by
  dsimp only [hostOps2, hostOps2_1]
  after_results_simp
  rw [hlin, hsrc, hdst, hb]; rfl

/-- The third layer after its product (no clamp), then the decoder: for each labelled pair the sum over the feature
    axis of the products of its two endpoints' rows. -/
theorem stage3 (W : Valuation τ sig (Elt F))
    (x0 : (⟨S20000x512, .f32⟩ : BufTy).Contents (Elt F)) (x1 : (⟨S2x320000, .i32⟩ : BufTy).Contents (Elt F))
    (x2 : (⟨S2x100000, .i32⟩ : BufTy).Contents (Elt F))
    (x3 : (⟨S512x512, .f32⟩ : BufTy).Contents (Elt F)) (x4 : (⟨S512, .f32⟩ : BufTy).Contents (Elt F))
    (x5 : (⟨S512x512, .f32⟩ : BufTy).Contents (Elt F)) (x6 : (⟨S512, .f32⟩ : BufTy).Contents (Elt F))
    (x7 : (⟨S512x256, .f32⟩ : BufTy).Contents (Elt F)) (x8 : (⟨S256, .f32⟩ : BufTy).Contents (Elt F))
    (hlin : W (Proc.devRef .tc main_v34) = val_main_v34 (F := F) x0 x1 x3 x4 x5 x6 x7)
    (hsrc : W (Proc.devRef .tc main_v1) = val_main_v1 (F := F) x1)
    (hdst : W (Proc.devRef .tc main_v3) = val_main_v3 (F := F) x1)
    (hb : W (Proc.devRef .tc main_arg8) = x8)
    (hlbl : W (Proc.devRef .tc main_arg2) = x2) :
    after hostOps3 W (Proc.devRef .tc main_v67) = val_main_v67 (F := F) x0 x1 x2 x3 x4 x5 x6 x7 x8 := by
  dsimp only [hostOps3]
  after_results_simp
  rw [hlin, hsrc, hdst, hb, hlbl]; rfl

end Cert.KernelIdeal.HostStages

end
-- ==== Proof.MatmulRead.lean ====
/-
  The body of each of the three kernels at one index. A body loads a block of 2000 rows of the layer's input and the
  whole weight matrix, narrows both to bfloat16 and multiplies them on the matrix unit into a zero accumulator. Over
  the extended reals the narrowing is the identity and the matrix unit's product is the textbook one, so entry
  (p, q) of what the body stores is the sum over k of row p of the block times column q of the weights.
-/
import proofs.«125610_j88278757802628_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.MatmulRead

open Cert.KernelIdeal Cert.KernelIdeal.Gen Idealize.ShloMosaic
open scoped BigOperators

/-! ## The 512-wide product (layers one and two) -/

/-- Row `i 0` of the left operand at column `k`. -/
abbrev lrow512 (i : S2000x512.Idx) (k : Fin 512) : S2000x512.Idx := fun a => match a with
  | ⟨0, _⟩ => ⟨(i 0).val, (i 0).isLt⟩
  | ⟨1, _⟩ => ⟨k.val, k.isLt⟩
/-- Column `i 1` of the right operand at row `k`. -/
abbrev rcol512 (i : S2000x512.Idx) (k : Fin 512) : S512x512.Idx := fun a => match a with
  | ⟨0, _⟩ => ⟨k.val, k.isLt⟩
  | ⟨1, _⟩ => ⟨(i 1).val, (i 1).isLt⟩

theorem lhs512_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs512_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs512_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs512_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The matrix unit's product of a 2000 × 512 block and a 512 × 512 matrix into zeros, at an index. -/
theorem matmul512_apply (x : FVec Ideal S2000x512 .bf16) (w : FVec Ideal S512x512 .bf16) (i : S2000x512.Idx) :
    matmul dot_S2000x512_S512x512_S2000x512_1_0_0_1_n_n none x w (constant S2000x512 .f32 0x00000000#32) i
      = ∑ k : Fin 512, x (lrow512 i k) * w (rcol512 i k) := by
  refine (Ideal.matmul_constant_zero_apply dot_S2000x512_S512x512_S2000x512_1_0_0_1_n_n none x w i).trans ?_
  rw [← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx i ((ValueIdx.contrEquiv1 dot_S2000x512_S512x512_S2000x512_1_0_0_1_n_n 512 rfl rfl).symm k) = lrow512 i k := funext fun a => Fin.ext (by
    match a with
    | ⟨0, _⟩ => exact lhs512_0 _ _
    | ⟨1, _⟩ => exact (lhs512_1 _ _).trans hk)
  have er : dot_S2000x512_S512x512_S2000x512_1_0_0_1_n_n.rhsIdx i ((ValueIdx.contrEquiv1 dot_S2000x512_S512x512_S2000x512_1_0_0_1_n_n 512 rfl rfl).symm k) = rcol512 i k := funext fun a => Fin.ext (by
    match a with
    | ⟨0, _⟩ => exact (rhs512_0 _ _).trans hk
    | ⟨1, _⟩ => exact rhs512_1 _ _)
  rw [el, er]

/-- The first kernel's stored value at an index: the narrowing to bfloat16 is the identity here. -/
theorem pay0_apply (x : Vec Ideal S2000x512 .f32) (w : Vec Ideal S512x512 .f32) (i : S2000x512.Idx) :
    k0_pay1 (F := Ideal) x w i = ∑ k : Fin 512, x (lrow512 i k) * w (rcol512 i k) := by
  unfold k0_pay1
  exact matmul512_apply _ _ i

/-- The second kernel's: it also reshapes the block to its own shape first, which changes nothing. -/
theorem pay1_apply (x : Vec Ideal S2000x512 .f32) (w : Vec Ideal S512x512 .f32) (i : S2000x512.Idx) :
    k1_pay1 (F := Ideal) x w i = ∑ k : Fin 512, x (lrow512 i k) * w (rcol512 i k) := by
  unfold k1_pay1
  rw [shapeCast_self]
  exact matmul512_apply _ _ i

/-! ## The 256-wide product (layer three) -/

abbrev lrow256 (i : S2000x256.Idx) (k : Fin 512) : S2000x512.Idx := fun a => match a with
  | ⟨0, _⟩ => ⟨(i 0).val, (i 0).isLt⟩
  | ⟨1, _⟩ => ⟨k.val, k.isLt⟩
abbrev rcol256 (i : S2000x256.Idx) (k : Fin 512) : S512x256.Idx := fun a => match a with
  | ⟨0, _⟩ => ⟨k.val, k.isLt⟩
  | ⟨1, _⟩ => ⟨(i 1).val, (i 1).isLt⟩

theorem lhs256_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs256_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem rhs256_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem rhs256_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

theorem matmul256_apply (x : FVec Ideal S2000x512 .bf16) (w : FVec Ideal S512x256 .bf16) (i : S2000x256.Idx) :
    matmul dot_S2000x512_S512x256_S2000x256_1_0_0_1_n_n none x w (constant S2000x256 .f32 0x00000000#32) i
      = ∑ k : Fin 512, x (lrow256 i k) * w (rcol256 i k) := by
  refine (Ideal.matmul_constant_zero_apply dot_S2000x512_S512x256_S2000x256_1_0_0_1_n_n none x w i).trans ?_
  rw [← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx i ((ValueIdx.contrEquiv1 dot_S2000x512_S512x256_S2000x256_1_0_0_1_n_n 512 rfl rfl).symm k) = lrow256 i k := funext fun a => Fin.ext (by
    match a with
    | ⟨0, _⟩ => exact lhs256_0 _ _
    | ⟨1, _⟩ => exact (lhs256_1 _ _).trans hk)
  have er : dot_S2000x512_S512x256_S2000x256_1_0_0_1_n_n.rhsIdx i ((ValueIdx.contrEquiv1 dot_S2000x512_S512x256_S2000x256_1_0_0_1_n_n 512 rfl rfl).symm k) = rcol256 i k := funext fun a => Fin.ext (by
    match a with
    | ⟨0, _⟩ => exact (rhs256_0 _ _).trans hk
    | ⟨1, _⟩ => exact rhs256_1 _ _)
  rw [el, er]

/-- The third kernel's stored value at an index. -/
theorem pay2_apply (x : Vec Ideal S2000x512 .f32) (w : Vec Ideal S512x256 .f32) (i : S2000x256.Idx) :
    k2_pay1 (F := Ideal) x w i = ∑ k : Fin 512, x (lrow256 i k) * w (rcol256 i k) := by
  unfold k2_pay1
  rw [shapeCast_self]
  exact matmul256_apply _ _ i

end Cert.KernelIdeal.MatmulRead

end
-- ==== Proof.Region0.lean ====
/-
  The first layer's matrix product: what the first kernel region leaves in its output array.
  The pipeline cuts the node features into ten blocks of 2000 rows; at grid point t the body multiplies block t by the whole
  weight matrix and the pipeline writes the 2000 × 512 result back as block t of the output. Entry (p, q) of that block is
  the sum over k of the input's row 2000·t + p times the weights' column q, which is entry (2000·t + p, q) of the
  product of the two whole arrays; the ten blocks tile the output's 20000 rows, so the output array ends as that
  product — the host's `dot_general` of the same two arrays, whose entry at (r, q) is the same sum.
-/
import proofs.«125610_j88278757802628_1_alg».proof.Proof.Gen.KernelIdeal.Frame
import proofs.«125610_j88278757802628_1_alg».proof.Proof.Gen.ReferenceIdeal.Read
import proofs.«125610_j88278757802628_1_alg».proof.Proof.MatmulRead

set_option maxRecDepth 16384

noncomputable section

namespace Cert.KernelIdeal.Region0

open Cert.KernelIdeal Cert.KernelIdeal.Gen Cert.KernelIdeal.MatmulRead
open Idealize.ShloMosaic Idealize.ShloMosaic.TcCoe Idealize.SL.Sem
open Idealize.ShloMosaic.Pipeline (Dat Cfg Window)
open scoped BigOperators

-- the buffer contents the region is entered from
variable (V : (c : Dev nD) → (b : Ref sig .tc) → Buf (Elt Ideal) ((c : Thread nD τ).loc b))

theorem off0 : (![0, 0] : Fin 2 → Nat) = fun _ => 0 := funext fun a => by fin_cases a <;> rfl

/-- The layer's input as the region finds it, and the weight matrix. -/
abbrev inX (c : Dev nD) : FVec Ideal S20000x512 .f32 := V c main_arg0
abbrev inW (c : Dev nD) : FVec Ideal S512x512 .f32 := V c main_arg3

/-- The host's product of a 20000 × 512 array and a 512 × 512 one. -/
abbrev prod (X : FVec Ideal S20000x512 .f32) (Wt : FVec Ideal S512x512 .f32) : FVec Ideal S20000x512 .f32 :=
  Host.dotGeneral (F := Ideal) (φ₁ := .f32) (φ₂ := .f32) Cert.ReferenceIdeal.dot_S20000x512_S512x512_S20000x512_1_0_0_1_n_n none X Wt

/-- Its entry at (r, q): the sum over k of X (r, k) · Wt (k, q). -/
theorem prod_apply (X : FVec Ideal S20000x512 .f32) (Wt : FVec Ideal S512x512 .f32) (i : S20000x512.Idx) :
    prod X Wt i = ∑ k : Fin 512, X (Cert.ReferenceIdeal.Read.lidx_main_v4 i k) * Wt (Cert.ReferenceIdeal.Read.ridx_main_v4 i k) := by
  show FloatOps.dotGeneral Cert.ReferenceIdeal.dot_S20000x512_S512x512_S20000x512_1_0_0_1_n_n none _ X Wt i = _
  rw [Ideal.dotGeneral_apply, ← Equiv.sum_comp (ValueIdx.contrEquiv1 Cert.ReferenceIdeal.dot_S20000x512_S512x512_S20000x512_1_0_0_1_n_n 512 rfl rfl).symm]
  refine Finset.sum_congr rfl fun k _ => ?_
  have hk := ValueIdx.contrEquiv1_symm_val Cert.ReferenceIdeal.dot_S20000x512_S512x512_S20000x512_1_0_0_1_n_n 512 rfl rfl k
  have el : Cert.ReferenceIdeal.dot_S20000x512_S512x512_S20000x512_1_0_0_1_n_n.lhsIdx i ((ValueIdx.contrEquiv1 Cert.ReferenceIdeal.dot_S20000x512_S512x512_S20000x512_1_0_0_1_n_n 512 rfl rfl).symm k) = Cert.ReferenceIdeal.Read.lidx_main_v4 i k := funext fun a => Fin.ext (by
    match a with
    | ⟨0, _⟩ => exact Cert.ReferenceIdeal.Read.lhs_main_v4_0 _ _
    | ⟨1, _⟩ => exact (Cert.ReferenceIdeal.Read.lhs_main_v4_1 _ _).trans hk)
  have er : Cert.ReferenceIdeal.dot_S20000x512_S512x512_S20000x512_1_0_0_1_n_n.rhsIdx i ((ValueIdx.contrEquiv1 Cert.ReferenceIdeal.dot_S20000x512_S512x512_S20000x512_1_0_0_1_n_n 512 rfl rfl).symm k) = Cert.ReferenceIdeal.Read.ridx_main_v4 i k := funext fun a => Fin.ext (by
    match a with
    | ⟨0, _⟩ => exact (Cert.ReferenceIdeal.Read.rhs_main_v4_0 _ _).trans hk
    | ⟨1, _⟩ => exact Cert.ReferenceIdeal.Read.rhs_main_v4_1 _ _)
  rw [el, er]

/-- The three index maps over the grid: the input's block and the output's block are the same block of rows, the input
    spans all 512 columns, the weights are one block, the output spans all its columns, and there are ten row blocks. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some grid point's. -/
theorem idx_onto : ∀ q : Fin 10, ∃ t : Fin cfg0.N, win0_2.index t = ![q.val, 0] :=
  (by decide +kernel : ∀ q : Fin 10, ∃ t : Fin grid0.N, win0_2.index t = ![q.val, 0])

/-- An input block read at an index is the array read where the block sits. -/
theorem blkX_apply (c : Dev nD) (t : Fin cfg0.N) (y : S2000x512.Idx) :
    (iblk0 V c 0 t : Vec Ideal S2000x512 .f32) y = inX V c (((cfg0.win 0).blk t).view.emb y) := rfl
theorem blkW_apply (c : Dev nD) (t : Fin cfg0.N) (y : S512x512.Idx) :
    (iblk0 V c 1 t : Vec Ideal S512x512 .f32) y = inW V c (((cfg0.win 1).blk t).view.emb y) := rfl

/-- Entry (p, q) of what point `t`'s body computes is entry (2000·t + p, q) of the whole product. -/
theorem block_entry (X : FVec Ideal S20000x512 .f32) (Wt : FVec Ideal S512x512 .f32) (t : Fin cfg0.N) (j : S2000x512.Idx) :
    (∑ k : Fin 512, X (((cfg0.win 0).blk t).view.emb (lrow512 j k)) * Wt (((cfg0.win 1).blk t).view.emb (rcol512 j k)))
      = prod X Wt (((cfg0.win 2).blk t).view.emb j) := by
  obtain ⟨e0, e1, e2, e3, e4, e5⟩ := idx_facts t
  refine Eq.trans ?_ (prod_apply X Wt (((cfg0.win 2).blk t).view.emb j)).symm
  refine Finset.sum_congr rfl fun k _ => ?_
  have hl : ((cfg0.win 0).blk t).view.emb (lrow512 j k) = Cert.ReferenceIdeal.Read.lidx_main_v4 (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have hr : ((cfg0.win 1).blk t).view.emb (rcol512 j k) = Cert.ReferenceIdeal.Read.ridx_main_v4 (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega
  rw [hl, hr]

/-- What grid point `t` writes back is block `t` of the product of the two arrays the region reads. -/
theorem flushed_eq (c : Dev nD) (t : Fin cfg0.N) :
    (dat0 V c).flushed 2 t = ((cfg0.win 2).blk t).view.read (Elt Ideal) (prod (inX V c) (inW V c)) := by
  show (cfg0.win 2).cut (grid0.coords t) ((dat0 V c).after 2 t) = _
  rw [after0_2]
  unfold out0_2
  rw [View.canon_unit_zero off0]
  simp only [View.ld_unit_zero (S := S2000x512) off0, View.ld_unit_zero (S := S512x512) off0]
  funext j
  show k0_pay1 (F := Ideal) (iblk0 V c 0 t) (iblk0 V c 1 t) j = prod (inX V c) (inW V c) (((cfg0.win 2).blk t).view.emb j)
  refine (pay0_apply (iblk0 V c 0 t) (iblk0 V c 1 t) j).trans ?_
  simp only [blkX_apply, blkW_apply]
  exact block_entry (inX V c) (inW V c) t j

/-- An index of the output array is in point `t`'s block iff each coordinate is in the block's range on its axis. -/
theorem mem_blk (t : Fin cfg0.N) (i : S20000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v4).slice (win0_2.rect t)).set ↔ _
  rw [View.set_slice_whole, Rect.mem_set_unit]
  exact Iff.rfl

/-- The ten blocks tile the output: row r lies in block r / 2000. -/
theorem cover (i : S20000x512.Idx) : ∃ t : Fin cfg0.N, (cfg0.win 2).flush t = true ∧ i ∈ ((cfg0.win 2).blk t).view.set := by
  have hi0 : (i 0).val < 20000 := (i 0).isLt
  have hi1 : (i 1).val < 512 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- The output array after the region: the product of the two arrays the region was entered with. -/
theorem arr (c : Dev nD) : (dat0 V c).arrAt 2 cfg0.N = prod (inX V c) (inW V c) :=
  (dat0 V c).arrAt_eq_of_cover 2 (prod (inX V c) (inW V c)) (fun t _ => flushed_eq V c t) cover

end Cert.KernelIdeal.Region0

end
-- ==== Proof.Region1.lean ====
/-
  The second layer's matrix product: what the second kernel region leaves in its output array.
  The pipeline cuts the first layer's output into ten blocks of 2000 rows; at grid point t the body multiplies block t by the whole
  weight matrix and the pipeline writes the 2000 × 512 result back as block t of the output. Entry (p, q) of that block is
  the sum over k of the input's row 2000·t + p times the weights' column q, which is entry (2000·t + p, q) of the
  product of the two whole arrays; the ten blocks tile the output's 20000 rows, so the output array ends as that
  product — the host's `dot_general` of the same two arrays, whose entry at (r, q) is the same sum.
-/
import proofs.«125610_j88278757802628_1_alg».proof.Proof.Gen.KernelIdeal.Frame
import proofs.«125610_j88278757802628_1_alg».proof.Proof.Gen.ReferenceIdeal.Read
import proofs.«125610_j88278757802628_1_alg».proof.Proof.MatmulRead

set_option maxRecDepth 16384

noncomputable section

namespace Cert.KernelIdeal.Region1

open Cert.KernelIdeal Cert.KernelIdeal.Gen Cert.KernelIdeal.MatmulRead
open Idealize.ShloMosaic Idealize.ShloMosaic.TcCoe Idealize.SL.Sem
open Idealize.ShloMosaic.Pipeline (Dat Cfg Window)
open scoped BigOperators

-- the buffer contents the region is entered from
variable (V : (c : Dev nD) → (b : Ref sig .tc) → Buf (Elt Ideal) ((c : Thread nD τ).loc b))

theorem off0 : (![0, 0] : Fin 2 → Nat) = fun _ => 0 := funext fun a => by fin_cases a <;> rfl

/-- The layer's input as the region finds it, and the weight matrix. -/
abbrev inX (c : Dev nD) : FVec Ideal S20000x512 .f32 := V c main_v18
abbrev inW (c : Dev nD) : FVec Ideal S512x512 .f32 := V c main_arg5

/-- The host's product of a 20000 × 512 array and a 512 × 512 one. -/
abbrev prod (X : FVec Ideal S20000x512 .f32) (Wt : FVec Ideal S512x512 .f32) : FVec Ideal S20000x512 .f32 :=
  Host.dotGeneral (F := Ideal) (φ₁ := .f32) (φ₂ := .f32) Cert.ReferenceIdeal.dot_S20000x512_S512x512_S20000x512_1_0_0_1_n_n none X Wt

/-- Its entry at (r, q): the sum over k of X (r, k) · Wt (k, q). -/
theorem prod_apply (X : FVec Ideal S20000x512 .f32) (Wt : FVec Ideal S512x512 .f32) (i : S20000x512.Idx) :
    prod X Wt i = ∑ k : Fin 512, X (Cert.ReferenceIdeal.Read.lidx_main_v19 i k) * Wt (Cert.ReferenceIdeal.Read.ridx_main_v19 i k) := by
  show FloatOps.dotGeneral Cert.ReferenceIdeal.dot_S20000x512_S512x512_S20000x512_1_0_0_1_n_n none _ X Wt i = _
  rw [Ideal.dotGeneral_apply, ← Equiv.sum_comp (ValueIdx.contrEquiv1 Cert.ReferenceIdeal.dot_S20000x512_S512x512_S20000x512_1_0_0_1_n_n 512 rfl rfl).symm]
  refine Finset.sum_congr rfl fun k _ => ?_
  have hk := ValueIdx.contrEquiv1_symm_val Cert.ReferenceIdeal.dot_S20000x512_S512x512_S20000x512_1_0_0_1_n_n 512 rfl rfl k
  have el : Cert.ReferenceIdeal.dot_S20000x512_S512x512_S20000x512_1_0_0_1_n_n.lhsIdx i ((ValueIdx.contrEquiv1 Cert.ReferenceIdeal.dot_S20000x512_S512x512_S20000x512_1_0_0_1_n_n 512 rfl rfl).symm k) = Cert.ReferenceIdeal.Read.lidx_main_v19 i k := funext fun a => Fin.ext (by
    match a with
    | ⟨0, _⟩ => exact Cert.ReferenceIdeal.Read.lhs_main_v19_0 _ _
    | ⟨1, _⟩ => exact (Cert.ReferenceIdeal.Read.lhs_main_v19_1 _ _).trans hk)
  have er : Cert.ReferenceIdeal.dot_S20000x512_S512x512_S20000x512_1_0_0_1_n_n.rhsIdx i ((ValueIdx.contrEquiv1 Cert.ReferenceIdeal.dot_S20000x512_S512x512_S20000x512_1_0_0_1_n_n 512 rfl rfl).symm k) = Cert.ReferenceIdeal.Read.ridx_main_v19 i k := funext fun a => Fin.ext (by
    match a with
    | ⟨0, _⟩ => exact (Cert.ReferenceIdeal.Read.rhs_main_v19_0 _ _).trans hk
    | ⟨1, _⟩ => exact Cert.ReferenceIdeal.Read.rhs_main_v19_1 _ _)
  rw [el, er]

/-- The three index maps over the grid: the input's block and the output's block are the same block of rows, the input
    spans all 512 columns, the weights are one block, the output spans all its columns, and there are ten row blocks. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some grid point's. -/
theorem idx_onto : ∀ q : Fin 10, ∃ t : Fin cfg1.N, win1_2.index t = ![q.val, 0] :=
  (by decide +kernel : ∀ q : Fin 10, ∃ t : Fin grid1.N, win1_2.index t = ![q.val, 0])

/-- An input block read at an index is the array read where the block sits. -/
theorem blkX_apply (c : Dev nD) (t : Fin cfg1.N) (y : S2000x512.Idx) :
    (iblk1 V c 0 t : Vec Ideal S2000x512 .f32) y = inX V c (((cfg1.win 0).blk t).view.emb y) := rfl
theorem blkW_apply (c : Dev nD) (t : Fin cfg1.N) (y : S512x512.Idx) :
    (iblk1 V c 1 t : Vec Ideal S512x512 .f32) y = inW V c (((cfg1.win 1).blk t).view.emb y) := rfl

/-- Entry (p, q) of what point `t`'s body computes is entry (2000·t + p, q) of the whole product. -/
theorem block_entry (X : FVec Ideal S20000x512 .f32) (Wt : FVec Ideal S512x512 .f32) (t : Fin cfg1.N) (j : S2000x512.Idx) :
    (∑ k : Fin 512, X (((cfg1.win 0).blk t).view.emb (lrow512 j k)) * Wt (((cfg1.win 1).blk t).view.emb (rcol512 j k)))
      = prod X Wt (((cfg1.win 2).blk t).view.emb j) := by
  obtain ⟨e0, e1, e2, e3, e4, e5⟩ := idx_facts t
  refine Eq.trans ?_ (prod_apply X Wt (((cfg1.win 2).blk t).view.emb j)).symm
  refine Finset.sum_congr rfl fun k _ => ?_
  have hl : ((cfg1.win 0).blk t).view.emb (lrow512 j k) = Cert.ReferenceIdeal.Read.lidx_main_v19 (((cfg1.win 2).blk t).view.emb j) k := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 512 + 1 * k.val = k.val; omega
  have hr : ((cfg1.win 1).blk t).view.emb (rcol512 j k) = Cert.ReferenceIdeal.Read.ridx_main_v19 (((cfg1.win 2).blk t).view.emb j) k := by
    funext a; apply Fin.ext
    match a with
    | ⟨0, _⟩ => show win1_1.index t (0 : Fin 2) * 512 + 1 * k.val = k.val; omega
    | ⟨1, _⟩ => show win1_1.index t (1 : Fin 2) * 512 + 1 * (j 1).val = win1_2.index t (1 : Fin 2) * 512 + 1 * (j 1).val; omega
  rw [hl, hr]

/-- What grid point `t` writes back is block `t` of the product of the two arrays the region reads. -/
theorem flushed_eq (c : Dev nD) (t : Fin cfg1.N) :
    (dat1 V c).flushed 2 t = ((cfg1.win 2).blk t).view.read (Elt Ideal) (prod (inX V c) (inW V c)) := by
  show (cfg1.win 2).cut (grid1.coords t) ((dat1 V c).after 2 t) = _
  rw [after1_2]
  unfold out1_2
  rw [View.canon_unit_zero off0]
  simp only [View.ld_unit_zero (S := S2000x512) off0, View.ld_unit_zero (S := S512x512) off0]
  funext j
  show k1_pay1 (F := Ideal) (iblk1 V c 0 t) (iblk1 V c 1 t) j = prod (inX V c) (inW V c) (((cfg1.win 2).blk t).view.emb j)
  refine (pay1_apply (iblk1 V c 0 t) (iblk1 V c 1 t) j).trans ?_
  simp only [blkX_apply, blkW_apply]
  exact block_entry (inX V c) (inW V c) t j

/-- An index of the output array is in point `t`'s block iff each coordinate is in the block's range on its axis. -/
theorem mem_blk (t : Fin cfg1.N) (i : S20000x512.Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v19).slice (win1_2.rect t)).set ↔ _
  rw [View.set_slice_whole, Rect.mem_set_unit]
  exact Iff.rfl

/-- The ten blocks tile the output: row r lies in block r / 2000. -/
theorem cover (i : S20000x512.Idx) : ∃ t : Fin cfg1.N, (cfg1.win 2).flush t = true ∧ i ∈ ((cfg1.win 2).blk t).view.set := by
  have hi0 : (i 0).val < 20000 := (i 0).isLt
  have hi1 : (i 1).val < 512 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 512 ≤ (i 1).val ∧ (i 1).val < win1_2.index t (1 : Fin 2) * 512 + 512; omega

/-- The output array after the region: the product of the two arrays the region was entered with. -/
theorem arr (c : Dev nD) : (dat1 V c).arrAt 2 cfg1.N = prod (inX V c) (inW V c) :=
  (dat1 V c).arrAt_eq_of_cover 2 (prod (inX V c) (inW V c)) (fun t _ => flushed_eq V c t) cover

end Cert.KernelIdeal.Region1

end
-- ==== Proof.Region2.lean ====
/-
  The third layer's matrix product: what the third kernel region leaves in its output array.
  The pipeline cuts the second layer's output into ten blocks of 2000 rows; at grid point t the body multiplies block t by the whole
  weight matrix and the pipeline writes the 2000 × 256 result back as block t of the output. Entry (p, q) of that block is
  the sum over k of the input's row 2000·t + p times the weights' column q, which is entry (2000·t + p, q) of the
  product of the two whole arrays; the ten blocks tile the output's 20000 rows, so the output array ends as that
  product — the host's `dot_general` of the same two arrays, whose entry at (r, q) is the same sum.
-/
import proofs.«125610_j88278757802628_1_alg».proof.Proof.Gen.KernelIdeal.Frame
import proofs.«125610_j88278757802628_1_alg».proof.Proof.Gen.ReferenceIdeal.Read
import proofs.«125610_j88278757802628_1_alg».proof.Proof.MatmulRead

set_option maxRecDepth 16384

noncomputable section

namespace Cert.KernelIdeal.Region2

open Cert.KernelIdeal Cert.KernelIdeal.Gen Cert.KernelIdeal.MatmulRead
open Idealize.ShloMosaic Idealize.ShloMosaic.TcCoe Idealize.SL.Sem
open Idealize.ShloMosaic.Pipeline (Dat Cfg Window)
open scoped BigOperators

-- the buffer contents the region is entered from
variable (V : (c : Dev nD) → (b : Ref sig .tc) → Buf (Elt Ideal) ((c : Thread nD τ).loc b))

theorem off0 : (![0, 0] : Fin 2 → Nat) = fun _ => 0 := funext fun a => by fin_cases a <;> rfl

/-- The layer's input as the region finds it, and the weight matrix. -/
abbrev inX (c : Dev nD) : FVec Ideal S20000x512 .f32 := V c main_v33
abbrev inW (c : Dev nD) : FVec Ideal S512x256 .f32 := V c main_arg7

/-- The host's product of a 20000 × 512 array and a 512 × 256 one. -/
abbrev prod (X : FVec Ideal S20000x512 .f32) (Wt : FVec Ideal S512x256 .f32) : FVec Ideal S20000x256 .f32 :=
  Host.dotGeneral (F := Ideal) (φ₁ := .f32) (φ₂ := .f32) Cert.ReferenceIdeal.dot_S20000x512_S512x256_S20000x256_1_0_0_1_n_n none X Wt

/-- Its entry at (r, q): the sum over k of X (r, k) · Wt (k, q). -/
theorem prod_apply (X : FVec Ideal S20000x512 .f32) (Wt : FVec Ideal S512x256 .f32) (i : S20000x256.Idx) :
    prod X Wt i = ∑ k : Fin 512, X (Cert.ReferenceIdeal.Read.lidx_main_v34 i k) * Wt (Cert.ReferenceIdeal.Read.ridx_main_v34 i k) := by
  show FloatOps.dotGeneral Cert.ReferenceIdeal.dot_S20000x512_S512x256_S20000x256_1_0_0_1_n_n none _ X Wt i = _
  rw [Ideal.dotGeneral_apply, ← Equiv.sum_comp (ValueIdx.contrEquiv1 Cert.ReferenceIdeal.dot_S20000x512_S512x256_S20000x256_1_0_0_1_n_n 512 rfl rfl).symm]
  refine Finset.sum_congr rfl fun k _ => ?_
  have hk := ValueIdx.contrEquiv1_symm_val Cert.ReferenceIdeal.dot_S20000x512_S512x256_S20000x256_1_0_0_1_n_n 512 rfl rfl k
  have el : Cert.ReferenceIdeal.dot_S20000x512_S512x256_S20000x256_1_0_0_1_n_n.lhsIdx i ((ValueIdx.contrEquiv1 Cert.ReferenceIdeal.dot_S20000x512_S512x256_S20000x256_1_0_0_1_n_n 512 rfl rfl).symm k) = Cert.ReferenceIdeal.Read.lidx_main_v34 i k := funext fun a => Fin.ext (by
    match a with
    | ⟨0, _⟩ => exact Cert.ReferenceIdeal.Read.lhs_main_v34_0 _ _
    | ⟨1, _⟩ => exact (Cert.ReferenceIdeal.Read.lhs_main_v34_1 _ _).trans hk)
  have er : Cert.ReferenceIdeal.dot_S20000x512_S512x256_S20000x256_1_0_0_1_n_n.rhsIdx i ((ValueIdx.contrEquiv1 Cert.ReferenceIdeal.dot_S20000x512_S512x256_S20000x256_1_0_0_1_n_n 512 rfl rfl).symm k) = Cert.ReferenceIdeal.Read.ridx_main_v34 i k := funext fun a => Fin.ext (by
    match a with
    | ⟨0, _⟩ => exact (Cert.ReferenceIdeal.Read.rhs_main_v34_0 _ _).trans hk
    | ⟨1, _⟩ => exact Cert.ReferenceIdeal.Read.rhs_main_v34_1 _ _)
  rw [el, er]

/-- The three index maps over the grid: the input's block and the output's block are the same block of rows, the input
    spans all 512 columns, the weights are one block, the output spans all its columns, and there are ten row blocks. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks is some grid point's. -/
theorem idx_onto : ∀ q : Fin 10, ∃ t : Fin cfg2.N, win2_2.index t = ![q.val, 0] :=
  (by decide +kernel : ∀ q : Fin 10, ∃ t : Fin grid2.N, win2_2.index t = ![q.val, 0])

/-- An input block read at an index is the array read where the block sits. -/
theorem blkX_apply (c : Dev nD) (t : Fin cfg2.N) (y : S2000x512.Idx) :
    (iblk2 V c 0 t : Vec Ideal S2000x512 .f32) y = inX V c (((cfg2.win 0).blk t).view.emb y) := rfl
theorem blkW_apply (c : Dev nD) (t : Fin cfg2.N) (y : S512x256.Idx) :
    (iblk2 V c 1 t : Vec Ideal S512x256 .f32) y = inW V c (((cfg2.win 1).blk t).view.emb y) := rfl

/-- Entry (p, q) of what point `t`'s body computes is entry (2000·t + p, q) of the whole product. -/
theorem block_entry (X : FVec Ideal S20000x512 .f32) (Wt : FVec Ideal S512x256 .f32) (t : Fin cfg2.N) (j : S2000x256.Idx) :
    (∑ k : Fin 512, X (((cfg2.win 0).blk t).view.emb (lrow256 j k)) * Wt (((cfg2.win 1).blk t).view.emb (rcol256 j k)))
      = prod X Wt (((cfg2.win 2).blk t).view.emb j) := by
  obtain ⟨e0, e1, e2, e3, e4, e5⟩ := idx_facts t
  refine Eq.trans ?_ (prod_apply X Wt (((cfg2.win 2).blk t).view.emb j)).symm
  refine Finset.sum_congr rfl fun k _ => ?_
  have hl : ((cfg2.win 0).blk t).view.emb (lrow256 j k) = Cert.ReferenceIdeal.Read.lidx_main_v34 (((cfg2.win 2).blk t).view.emb j) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 512 + 1 * k.val = k.val; omega
  have hr : ((cfg2.win 1).blk t).view.emb (rcol256 j k) = Cert.ReferenceIdeal.Read.ridx_main_v34 (((cfg2.win 2).blk t).view.emb j) k := by
    funext a; apply Fin.ext
    match a with
    | ⟨0, _⟩ => show win2_1.index t (0 : Fin 2) * 512 + 1 * k.val = k.val; omega
    | ⟨1, _⟩ => show win2_1.index t (1 : Fin 2) * 256 + 1 * (j 1).val = win2_2.index t (1 : Fin 2) * 256 + 1 * (j 1).val; omega
  rw [hl, hr]

/-- What grid point `t` writes back is block `t` of the product of the two arrays the region reads. -/
theorem flushed_eq (c : Dev nD) (t : Fin cfg2.N) :
    (dat2 V c).flushed 2 t = ((cfg2.win 2).blk t).view.read (Elt Ideal) (prod (inX V c) (inW V c)) := by
  show (cfg2.win 2).cut (grid2.coords t) ((dat2 V c).after 2 t) = _
  rw [after2_2]
  unfold out2_2
  rw [View.canon_unit_zero off0]
  simp only [View.ld_unit_zero (S := S2000x512) off0, View.ld_unit_zero (S := S512x256) off0]
  funext j
  show k2_pay1 (F := Ideal) (iblk2 V c 0 t) (iblk2 V c 1 t) j = prod (inX V c) (inW V c) (((cfg2.win 2).blk t).view.emb j)
  refine (pay2_apply (iblk2 V c 0 t) (iblk2 V c 1 t) j).trans ?_
  simp only [blkX_apply, blkW_apply]
  exact block_entry (inX V c) (inW V c) t j

/-- An index of the output array is in point `t`'s block iff each coordinate is in the block's range on its axis. -/
theorem mem_blk (t : Fin cfg2.N) (i : S20000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v34).slice (win2_2.rect t)).set ↔ _
  rw [View.set_slice_whole, Rect.mem_set_unit]
  exact Iff.rfl

/-- The ten blocks tile the output: row r lies in block r / 2000. -/
theorem cover (i : S20000x256.Idx) : ∃ t : Fin cfg2.N, (cfg2.win 2).flush t = true ∧ i ∈ ((cfg2.win 2).blk t).view.set := by
  have hi0 : (i 0).val < 20000 := (i 0).isLt
  have hi1 : (i 1).val < 256 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

/-- The output array after the region: the product of the two arrays the region was entered with. -/
theorem arr (c : Dev nD) : (dat2 V c).arrAt 2 cfg2.N = prod (inX V c) (inW V c) :=
  (dat2 V c).arrAt_eq_of_cover 2 (prod (inX V c) (inW V c)) (fun t _ => flushed_eq V c t) cover

end Cert.KernelIdeal.Region2

end
-- ==== Proof.KernelValue.lean ====
/-
  The kernel program's result as a function of its arguments. The program is three graph-convolution layers and a
  decoder; its buffers pass through ten boundaries (the launch, then alternately a stretch of host operations and a
  kernel region). Walking the boundaries in order: the edge list's two rows are computed once, before the first
  region, and no later operation or region writes them or the weight and bias arguments, so each is read unchanged
  where it is needed; each region leaves the product of its two input arrays in its output; each stretch of host
  operations turns that product into the layer's output. At every step the value is the reference's stage of the
  same name, so the last buffer holds the reference's result.
-/
import proofs.«125610_j88278757802628_1_alg».proof.Proof.Gen.KernelIdeal.Frame
import proofs.«125610_j88278757802628_1_alg».proof.Proof.Gen.ReferenceIdeal.Read
import proofs.«125610_j88278757802628_1_alg».proof.Proof.Carry
import proofs.«125610_j88278757802628_1_alg».proof.Proof.HostStages
import proofs.«125610_j88278757802628_1_alg».proof.Proof.Region0
import proofs.«125610_j88278757802628_1_alg».proof.Proof.Region1
import proofs.«125610_j88278757802628_1_alg».proof.Proof.Region2

noncomputable section

namespace Cert.KernelIdeal.KernelValue

open Cert.KernelIdeal Cert.KernelIdeal.Gen Cert.KernelIdeal.Carry Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

/-! ## The arguments as launched -/

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)

/-! ## A buffer nothing writes between two boundaries -/

theorem W2_eq (b : Ref sig .tc) (h0 : ∀ w, Pipeline.arrRef spec0 w ≠ b) :
    W2 m ρ c (Proc.devRef .tc b) = W1 m ρ c (Proc.devRef .tc b) := W2_of_ne m ρ c b h0
theorem W4_eq (b : Ref sig .tc) (h0 : ∀ w, Pipeline.arrRef spec0 w ≠ b) (h1 : b ∉ (hostOps1_W : List (Ref sig .tc)))
    (h11 : b ∉ (hostOps1_1_W : List (Ref sig .tc))) :
    W4 m ρ c (Proc.devRef .tc b) = W1 m ρ c (Proc.devRef .tc b) :=
  (W4_of m ρ c b h11).trans ((W3_of m ρ c b h1).trans (W2_eq m ρ c b h0))
theorem W5_eq (b : Ref sig .tc) (h0 : ∀ w, Pipeline.arrRef spec0 w ≠ b) (h1 : b ∉ (hostOps1_W : List (Ref sig .tc)))
    (h11 : b ∉ (hostOps1_1_W : List (Ref sig .tc))) (hr1 : ∀ w, Pipeline.arrRef spec1 w ≠ b) :
    W5 m ρ c (Proc.devRef .tc b) = W1 m ρ c (Proc.devRef .tc b) :=
  (W5_of_ne m ρ c b hr1).trans (W4_eq m ρ c b h0 h1 h11)
theorem W7_eq (b : Ref sig .tc) (h0 : ∀ w, Pipeline.arrRef spec0 w ≠ b) (h1 : b ∉ (hostOps1_W : List (Ref sig .tc)))
    (h11 : b ∉ (hostOps1_1_W : List (Ref sig .tc))) (hr1 : ∀ w, Pipeline.arrRef spec1 w ≠ b)
    (h2 : b ∉ (hostOps2_W : List (Ref sig .tc))) (h21 : b ∉ (hostOps2_1_W : List (Ref sig .tc))) :
    W7 m ρ c (Proc.devRef .tc b) = W1 m ρ c (Proc.devRef .tc b) :=
  (W7_of m ρ c b h21).trans ((W6_of m ρ c b h2).trans (W5_eq m ρ c b h0 h1 h11 hr1))
theorem W8_eq (b : Ref sig .tc) (h0 : ∀ w, Pipeline.arrRef spec0 w ≠ b) (h1 : b ∉ (hostOps1_W : List (Ref sig .tc)))
    (h11 : b ∉ (hostOps1_1_W : List (Ref sig .tc))) (hr1 : ∀ w, Pipeline.arrRef spec1 w ≠ b)
    (h2 : b ∉ (hostOps2_W : List (Ref sig .tc))) (h21 : b ∉ (hostOps2_1_W : List (Ref sig .tc)))
    (hr2 : ∀ w, Pipeline.arrRef spec2 w ≠ b) :
    W8 m ρ c (Proc.devRef .tc b) = W1 m ρ c (Proc.devRef .tc b) :=
  (W8_of_ne m ρ c b hr2).trans (W7_eq m ρ c b h0 h1 h11 hr1 h2 h21)

/-! ## Before the first region -/

theorem W1_a0 : W1 m ρ c (Proc.devRef .tc main_arg0) = a0 m c := (W1_of m ρ c main_arg0 (by decide)).trans rfl
theorem W1_a2 : W1 m ρ c (Proc.devRef .tc main_arg2) = a2 m c := (W1_of m ρ c main_arg2 (by decide)).trans rfl
theorem W1_a3 : W1 m ρ c (Proc.devRef .tc main_arg3) = a3 m c := (W1_of m ρ c main_arg3 (by decide)).trans rfl
theorem W1_a4 : W1 m ρ c (Proc.devRef .tc main_arg4) = a4 m c := (W1_of m ρ c main_arg4 (by decide)).trans rfl
theorem W1_a5 : W1 m ρ c (Proc.devRef .tc main_arg5) = a5 m c := (W1_of m ρ c main_arg5 (by decide)).trans rfl
theorem W1_a6 : W1 m ρ c (Proc.devRef .tc main_arg6) = a6 m c := (W1_of m ρ c main_arg6 (by decide)).trans rfl
theorem W1_a7 : W1 m ρ c (Proc.devRef .tc main_arg7) = a7 m c := (W1_of m ρ c main_arg7 (by decide)).trans rfl
theorem W1_a8 : W1 m ρ c (Proc.devRef .tc main_arg8) = a8 m c := (W1_of m ρ c main_arg8 (by decide)).trans rfl

/-- The source node of every edge. -/
theorem W1_src : W1 m ρ c (Proc.devRef .tc main_v1) = val_main_v1 (F := Ideal) (a1 m c) :=
  HostStages.stage0_src (W0 m ρ c) (a1 m c) rfl
/-- The destination node of every edge. -/
theorem W1_dst : W1 m ρ c (Proc.devRef .tc main_v3) = val_main_v3 (F := Ideal) (a1 m c) :=
  HostStages.stage0_dst (W0 m ρ c) (a1 m c) rfl

/-! ## Layer one -/

/-- The first region leaves the product of the node features and the first weight matrix. -/
theorem W2_lin : W2 m ρ c (Proc.devRef .tc main_v4) = val_main_v4 (F := Ideal) (a0 m c) (a3 m c) := by
  refine (W2_arr m ρ c 2).trans ((Region0.arr (V1 m ρ) c).trans ?_)
  show Region0.prod (W1 m ρ c (Proc.devRef .tc main_arg0)) (W1 m ρ c (Proc.devRef .tc main_arg3)) = _
  rw [W1_a0, W1_a3]; rfl

/-- The first layer's output. -/
theorem W4_h1 : W4 m ρ c (Proc.devRef .tc main_v18) = val_main_v18 (F := Ideal) (a0 m c) (a1 m c) (a3 m c) (a4 m c) :=
  HostStages.stage1 (W2 m ρ c) (a0 m c) (a1 m c) (a3 m c) (a4 m c) (W2_lin m ρ c)
    ((W2_eq m ρ c main_v1 (by decide)).trans (W1_src m ρ c))
    ((W2_eq m ρ c main_v3 (by decide)).trans (W1_dst m ρ c))
    ((W2_eq m ρ c main_arg4 (by decide)).trans (W1_a4 m ρ c))

/-! ## Layer two -/

theorem W5_lin : W5 m ρ c (Proc.devRef .tc main_v19)
    = val_main_v19 (F := Ideal) (a0 m c) (a1 m c) (a3 m c) (a4 m c) (a5 m c) := by
  refine (W5_arr m ρ c 2).trans ((Region1.arr (V4 m ρ) c).trans ?_)
  show Region1.prod (W4 m ρ c (Proc.devRef .tc main_v18)) (W4 m ρ c (Proc.devRef .tc main_arg5)) = _
  rw [W4_h1, (W4_eq m ρ c main_arg5 (by decide) (by decide) (by decide)).trans (W1_a5 m ρ c)]; rfl

theorem W7_h2 : W7 m ρ c (Proc.devRef .tc main_v33)
    = val_main_v33 (F := Ideal) (a0 m c) (a1 m c) (a3 m c) (a4 m c) (a5 m c) (a6 m c) :=
  HostStages.stage2 (W5 m ρ c) (a0 m c) (a1 m c) (a3 m c) (a4 m c) (a5 m c) (a6 m c) (W5_lin m ρ c)
    ((W5_eq m ρ c main_v1 (by decide) (by decide) (by decide) (by decide)).trans (W1_src m ρ c))
    ((W5_eq m ρ c main_v3 (by decide) (by decide) (by decide) (by decide)).trans (W1_dst m ρ c))
    ((W5_eq m ρ c main_arg6 (by decide) (by decide) (by decide) (by decide)).trans (W1_a6 m ρ c))

/-! ## Layer three and the decoder -/

theorem W8_lin : W8 m ρ c (Proc.devRef .tc main_v34)
    = val_main_v34 (F := Ideal) (a0 m c) (a1 m c) (a3 m c) (a4 m c) (a5 m c) (a6 m c) (a7 m c) := by
  refine (W8_arr m ρ c 2).trans ((Region2.arr (V7 m ρ) c).trans ?_)
  show Region2.prod (W7 m ρ c (Proc.devRef .tc main_v33)) (W7 m ρ c (Proc.devRef .tc main_arg7)) = _
  rw [W7_h2, (W7_eq m ρ c main_arg7 (by decide) (by decide) (by decide) (by decide) (by decide) (by decide)).trans (W1_a7 m ρ c)]; rfl

/-- The score of every labelled pair, as the kernel's program leaves it: the reference's result of the same arguments. -/
theorem result : W9 m ρ c (Proc.devRef .tc main_v67)
    = val_main_v67 (F := Ideal) (a0 m c) (a1 m c) (a2 m c) (a3 m c) (a4 m c) (a5 m c) (a6 m c) (a7 m c) (a8 m c) :=
  HostStages.stage3 (W8 m ρ c) (a0 m c) (a1 m c) (a2 m c) (a3 m c) (a4 m c) (a5 m c) (a6 m c) (a7 m c) (a8 m c) (W8_lin m ρ c)
    ((W8_eq m ρ c main_v1 (by decide) (by decide) (by decide) (by decide) (by decide) (by decide) (by decide)).trans (W1_src m ρ c))
    ((W8_eq m ρ c main_v3 (by decide) (by decide) (by decide) (by decide) (by decide) (by decide) (by decide)).trans (W1_dst m ρ c))
    ((W8_eq m ρ c main_arg8 (by decide) (by decide) (by decide) (by decide) (by decide) (by decide) (by decide)).trans (W1_a8 m ρ c))
    ((W8_eq m ρ c main_arg2 (by decide) (by decide) (by decide) (by decide) (by decide) (by decide) (by decide)).trans (W1_a2 m ρ c))

end Cert.KernelIdeal.KernelValue

end
-- ==== Proof.lean ====
/-
  A three-layer graph convolution with a dot-product decoder, computed two ways.

  Both programs take node features x (20000 × 512), an edge list, a list of labelled node pairs and three weight
  matrices with biases. A layer multiplies the current features by its weight matrix, gathers the product's rows at
  the edges' source nodes, adds them up at the destination nodes and adds the bias; the first two layers clamp the
  result below at zero. The decoder gathers the third layer's rows at the two endpoints of each labelled pair and sums
  the products of their entries. The two programs differ in one place per layer: the reference multiplies on the
  host, one `dot_general` of the whole 20000-row array, while the kernel cuts the rows into ten blocks of 2000,
  narrows each block and the weights to bfloat16 and multiplies block by block on the matrix unit.

  Over the extended reals the narrowing is the identity and both products are, entry by entry, the same sum over the
  contracted axis of input row times weight column (Proof/MatmulRead.lean; Proof/Region0.lean and its two siblings
  carry the sum from the blocks to the whole array). Every other operation is the same operation of the same
  operands in both programs (Proof/HostStages.lean), and the buffers a later layer reads again — the edge list's two
  rows, the weights, the biases — are written by nothing in between (Proof/Carry.lean). So the kernel program's
  result buffer holds the reference's result of the same arguments (Proof/KernelValue.lean). No law of arithmetic
  beyond re-indexing a finite sum is used, so the finiteness of the inputs is never opened.

  The three frame claims: the two kernel programs' are the generated frame certificates; the reference's is its
  generated run with the result dropped. The idealization rewrote no operation, so there is nothing to preserve.
-/
import proofs.«125610_j88278757802628_1_alg».proof.Defs
import proofs.«125610_j88278757802628_1_alg».proof.Proof.Gen.Kernel
import proofs.«125610_j88278757802628_1_alg».proof.Proof.Gen.Kernel.Skeleton
import proofs.«125610_j88278757802628_1_alg».proof.Proof.Gen.Kernel.Launch
import proofs.«125610_j88278757802628_1_alg».proof.Proof.Gen.Kernel.Points
import proofs.«125610_j88278757802628_1_alg».proof.Proof.Gen.Kernel.Frame
import proofs.«125610_j88278757802628_1_alg».proof.Proof.Gen.KernelIdeal
import proofs.«125610_j88278757802628_1_alg».proof.Proof.Gen.KernelIdeal.Skeleton
import proofs.«125610_j88278757802628_1_alg».proof.Proof.Gen.KernelIdeal.Launch
import proofs.«125610_j88278757802628_1_alg».proof.Proof.Gen.KernelIdeal.Points
import proofs.«125610_j88278757802628_1_alg».proof.Proof.Gen.KernelIdeal.Frame
import proofs.«125610_j88278757802628_1_alg».proof.Proof.Gen.ReferenceIdeal
import proofs.«125610_j88278757802628_1_alg».proof.Proof.Gen.Pre_finite_inputs
import proofs.«125610_j88278757802628_1_alg».proof.Proof.Gen.ReferenceIdeal.Run
import proofs.«125610_j88278757802628_1_alg».proof.Proof.Gen.ReferenceIdeal.Read
import proofs.«125610_j88278757802628_1_alg».proof.Proof.Launch
import proofs.«125610_j88278757802628_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference has no kernel: its run names its result, which a frame does not ask for. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed nothing. -/
theorem preserves : Cert.preserves_Kernel_KernelIdeal := trivial

/-- From memories that agree on the nine arguments both programs end with the same scores: the kernel program's
    last buffer is the reference's staged result of its own arguments, the reference's run ends at that staged result
    of ITS arguments, and the arguments agree. -/
theorem algebraic : Cert.algebraic_KernelIdeal_ReferenceIdeal := by
  intro m ρ m' ρ' _ hagree
  refine ⟨fun c => Cert.KernelIdeal.Gen.W9 m ρ c (Proc.devRef .tc Cert.KernelIdeal.main_v67),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v67_eq m' c).trans ?_
  obtain ⟨h0, h1, h2, h3, h4, h5, h6, h7, h8⟩ := hagree c
  rw [h0, h1, h2, h3, h4, h5, h6, h7, h8]
  exact (Cert.KernelIdeal.KernelValue.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
